-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "ck" .f32 0x3D122279#32 ((80338380498831 / 2251799813685248 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x28672 : Shape := ⟨2, ![4096, 28672]⟩
abbrev S_ : Shape := ⟨0, ![]⟩

class Facts : Prop where
  bcast_S_S4096x28672 : S_.BroadcastsInDim S4096x28672 (![] : Fin 0 → Fin S4096x28672.rank)
  reducesTo_S4096x28672_S_d0_1 : S4096x28672.ReducesTo [0, 1] S_
  h_S_ : 0 < S_.numel

variable [Facts]

def fn {F : FTy → Type} [FloatOps F] (main_arg0 : FVec F S4096x28672 .f32) : IVec S_ 1 :=
  let main_v0 : FVec F S4096x28672 .f32 := Host.absf main_arg0
  let main_cst : FVec F S_ .f32 := constant S_ .f32 0x7F800000#32
  let main_v1 : FVec F S4096x28672 .f32 := broadcastInDim S4096x28672 ![] bcast_S_S4096x28672 main_cst
  let main_v2 : IVec S4096x28672 1 := cmpf .olt main_v0 main_v1
  let main_c : IVec S_ 1 := constantI S_ 1 1#1
  let main_v3 : IVec S_ 1 := (fun x v => Host.reduce IntOp.andi x v reducesTo_S4096x28672_S_d0_1 h_S_) main_v2 main_c
  main_v3
-- ==== Kernel.lean ====
abbrev S4096x28672 : Shape := ⟨2, ![4096, 28672]⟩
abbrev S4096x14336 : Shape := ⟨2, ![4096, 14336]⟩
abbrev S512x2048 : Shape := ⟨2, ![512, 2048]⟩

abbrev nBuf : Space → Nat
  | .hbm => 2
  | .vmem => 6
  | .smem => 0
  | _ => 0

abbrev bufTy : (tb : Table) → Fin (tcTables nBuf tb) → BufTy
  | .hbm, ⟨0, _⟩ => ⟨S4096x28672, .f32⟩
  | .hbm, ⟨1, _⟩ => ⟨S4096x14336, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4096x28672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x28672.size a
  hwx0_0 : ∀ i : grid0.Coords, EltTy.bits .f32 = 32 ∨ (Rect.block (s := S4096x28672) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x28672.size a
  hwx0_1 : ∀ i : grid0.Coords, EltTy.bits .f32 = 32 ∨ (Rect.block (s := S4096x28672) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x14336.size a
  hwx0_2 : ∀ i : grid0.Coords, EltTy.bits .f32 = 32 ∨ (Rect.block (s := S4096x14336) S512x2048.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x28672 : Shape := ⟨2, ![4096, 28672]⟩
abbrev S4096x14336 : Shape := ⟨2, ![4096, 14336]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x28672, .f32⟩
  | .hbm, ⟨1, _⟩ => ⟨S4096x14336, .f32⟩
  | .hbm, ⟨2, _⟩ => ⟨S4096x14336, .f32⟩
  | .hbm, ⟨3, _⟩ => ⟨S_, .f32⟩
  | .hbm, ⟨4, _⟩ => ⟨S4096x14336, .f32⟩
  | .hbm, ⟨5, _⟩ => ⟨S4096x14336, .f32⟩
  | .hbm, ⟨6, _⟩ => ⟨S_, .f32⟩
  | .hbm, ⟨7, _⟩ => ⟨S4096x14336, .f32⟩
  | .hbm, ⟨8, _⟩ => ⟨S4096x14336, .f32⟩
  | .hbm, ⟨9, _⟩ => ⟨S4096x14336, .f32⟩
  | .hbm, ⟨10, _⟩ => ⟨S4096x14336, .f32⟩
  | .hbm, ⟨11, _⟩ => ⟨S4096x14336, .f32⟩
  | .hbm, ⟨12, _⟩ => ⟨S_, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S_, .f32⟩
  | .hbm, ⟨17, _⟩ => ⟨S4096x14336, .f32⟩
  | .hbm, ⟨18, _⟩ => ⟨S4096x14336, .f32⟩
  | .hbm, ⟨19, _⟩ => ⟨S4096x14336, .f32⟩
  | .hbm, ⟨20, _⟩ => ⟨S4096x14336, .f32⟩
  | _, _ => ⟨S4096x28672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S4096x28672_S4096x14336_0_0 : S4096x28672.Slices ![0, 0] S4096x14336
  slices_S4096x28672_S4096x14336_0_14336 : S4096x28672.Slices ![0, 14336] S4096x14336
  bcast_S_S4096x14336 : S_.BroadcastsInDim S4096x14336 (![] : Fin 0 → Fin S4096x14336.rank)

variable [Facts₀]

class Facts : Prop extends Facts₀ where

variable [Facts]
-- ==== Proof.KFrameBits.lean ====
/-
  The gated-GELU kernel runs to the end, faults nowhere, and leaves every array where the pipeline's bookkeeping says.

  The kernel is one pipelined region on an 8 × 7 grid. Its two input windows read the SAME array `x`: window 0 the
  block `(i, j)` of the gate half, window 1 the block `(i, j + 7)` of the up half; window 2 writes block `(i, j)` of
  the result. Because one array is handed to two windows, each window holds it at HALF the full share, and the two
  halves are dealt at launch from the array held whole. Nothing else is special: at each grid point the body loads its
  two input blocks, computes one block, and stores it whole; it carries nothing from point to point.
-/
import proofs.«424441_j6253472383788_3_alg».proof.Proof.Gen.Kernel.Launch
import proofs.«424441_j6253472383788_3_alg».proof.Proof.Gen.Kernel.Skeleton
import proofs.«424441_j6253472383788_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: what they held at launch, the program being the region
    alone. -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The gate window's staging buffer holds the gate block at every point, for any bookkeeping that starts from the
    entry contents and says the body leaves the block in place. -/
theorem gate_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the up window. -/
theorem up_before_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## One grid point -/

/-- The whole `512 × 2048` block, the one rectangle the body loads and stores through. -/
abbrev whole : Rect S512x2048 := Rect.unit (s := S512x2048) ![0, 0] S512x2048.size inb_S512x2048_S512x2048_0_0

/-- What the result window's buffer holds after the body, from the two input blocks: the body's one store, of the
    value computed from the two loads. -/
def outBlk (g : Vec F S512x2048 .f32) (u : Vec F S512x2048 .f32) : Vec F S512x2048 .f32 :=
  View.canon [⟨whole, k0_pay1 (View.ld g whole) (View.ld u whole)⟩]

/-- That one store covers the buffer. -/
theorem outBlk_cover (p0 : Vec F S512x2048 .f32) (y : S512x2048.Idx) :
    ∃ pc ∈ ([⟨whole, p0⟩] : List (View.Piece (Elt F) S512x2048 .f32)), y ∈ pc.1.set :=
  View.cover_of_tiled [⟨whole, p0⟩] S512x2048.size (by rfl) y

set_option maxHeartbeats 1000000 in
/-- The body on whole staging buffers: the inputs' at contents `g` and `u`, the result's at anything. It ends with the
    inputs' as they were and the result's at `outBlk g u`. (The body also loads the result buffer before storing into
    it; nothing reads that value.) -/
theorem sound_kernel (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole)
    (g : Vec F S512x2048 .f32) (u : Vec F S512x2048 .f32) (K : PUnit → sProp 𝕄) :
    iprop(owns (c : Thread nD τ) arg2 fullShare g ∗ owns (c : Thread nD τ) arg3 fullShare u ∗ (∃ d, owns (c : Thread nD τ) arg4 fullShare d)
        ∗ (iprop(owns (c : Thread nD τ) arg2 fullShare g ∗ owns (c : Thread nD τ) arg3 fullShare u ∗ owns (c : Thread nD τ) arg4 fullShare (outBlk g u)) -∗ K ⟨⟩))
      ⊢ wp frame (wpE (defs₀ (F := F)) Variants.none c none) E (cc0__gelu_mul_kernel i arg2 harg2 arg3 harg3 arg4 harg4) K := by
  simp only [cc0__gelu_mul_kernel_eq_skeleton]; unfold cc0__gelu_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlk_cover _)

/-! ## The bookkeeping -/

/-- What the pipeline is told about core `c`: the arrays as the region finds them; after the body at point `t` each
    input buffer at its block and the result buffer at `outBlk` of the two; nothing kept between points; nothing owed.
    The two input windows read one array, so each holds it at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := BI.emp
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_gate (c : Dev nD) (t : Fin cfg0.N) : (dats m 0 c).after 0 t = iblk m c 0 t := by dsimp only [dats]
theorem after_up (c : Dev nD) (t : Fin cfg0.N) : (dats m 0 c).after 1 t = iblk m c 1 t := by dsimp only [dats]
theorem after_out (c : Dev nD) (t : Fin cfg0.N) : (dats m 0 c).after 2 t = outBlk (iblk m c 0 t) (iblk m c 1 t) := by dsimp only [dats]

theorem before_gate (c : Dev nD) (t : Fin cfg0.N) (d) : (dats m 0 c).before 0 t d = iblk m c 0 t :=
  gate_before_of m (dats m 0 c) (A_eq m c 0) (after_gate m c) t d
theorem before_up (c : Dev nD) (t : Fin cfg0.N) (d) : (dats m 0 c).before 1 t d = iblk m c 1 t :=
  up_before_of m (dats m 0 c) (A_eq m c 1) (after_up m c) t d

/-! ## The body's obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_gate, before_up]
  rw [show (dats m 0 c).Φ t.succ = (dats m 0 c).Φ t.castSucc from rfl,
    show (dats m 0 c).owesAt () t.succ = (dats m 0 c).owesAt () t.castSucc from rfl,
    after_gate, after_up, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the input array to its two windows -/

/-- The buffers behind the three windows' arrays are two: the input array and the result array. -/
theorem arr_image : (Finset.univ.image (Pipeline.arrRef spec0) : Finset (Ref sig .tc)) = [main_arg0, main_v0].toFinset := by decide

/-- At launch the input array is held whole; its two windows take the two halves of that share, and the result
    window takes the result array whole. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq [main_arg0, main_v0] arr_image (by decide), bigSep_W0]
  have h0 : (cfg0.win 0).arr.view.set = Finset.univ := (arr_whole0 0).set_eq_univ
  have h2 : (cfg0.win 2).arr.view.set = Finset.univ := (arr_whole0 2).set_eq_univ
  -- the two input windows name one array, so one rewrite serves both
  rw [h0, h2]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦{fullShare.left} V m c main_arg0) ∗ ((c.tc : Thread nD τ).loc main_arg0 ↦{fullShare.right} V m c main_arg0)
      ∗ ((c.tc : Thread nD τ).loc main_v0 ↦{fullShare} V m c main_v0))
  iintro ⟨Hx, Ho⟩
  ihave Hx := (pointsTo_share (PosShare.mem_left_op_right fullShare)).1 $$ Hx
  icases Hx with ⟨Hl, Hr⟩
  isplitl [Hl]; · iexact Hl
  isplitl [Hr]; · iexact Hr
  iexact Ho

/-! ## The run -/

/-- From any memory with every counter at zero, every weakly fair execution of the program ends, without a fault, with
    the result array at what the pipeline's write-backs make of the blocks the body left, and the input array as it
    was. -/
theorem run_main : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => BI.emp) (Y := fun _ => BI.emp) (Z := fun _ => BI.emp)
    (hX := fun c => by rw [unscopedRest0_eq]; iintro -; isplitl [] <;> iempintro)
    (hin := fun c => by
      rw [scopedRest0_eq]
      show _ ⊢ (BI.emp : sProp 𝕄)
      iintro -; iempintro)
    (hout := fun c => by
      rw [scopedRest0_eq]
      show (BI.emp : sProp 𝕄) ⊢ _
      iintro -; isplitl [] <;> iempintro)
    (QY := fun _ _ => True)
    (hY := fun c s' => by
      iintro ⟨-, -, HSI⟩; imodintro
      isplitr
      · ipureintro; trivial
      iexact HSI)
    (hQ := fun s h c => ⟨(h c).1 2, ((h c).1 0).trans (((dats m 0 c).arrAt_in 0 rfl _).trans (A_eq m c 0))⟩)

/-- The program runs, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Frame

end
-- ==== Proof.KFrameIdeal.lean ====
/-
  The gated-GELU kernel runs to the end, faults nowhere, and leaves every array where the pipeline's bookkeeping says.

  The kernel is one pipelined region on an 8 × 7 grid. Its two input windows read the SAME array `x`: window 0 the
  block `(i, j)` of the gate half, window 1 the block `(i, j + 7)` of the up half; window 2 writes block `(i, j)` of
  the result. Because one array is handed to two windows, each window holds it at HALF the full share, and the two
  halves are dealt at launch from the array held whole. Nothing else is special: at each grid point the body loads its
  two input blocks, computes one block, and stores it whole; it carries nothing from point to point.
-/
import proofs.«424441_j6253472383788_3_alg».proof.Proof.Gen.KernelIdeal.Launch
import proofs.«424441_j6253472383788_3_alg».proof.Proof.Gen.KernelIdeal.Skeleton
import proofs.«424441_j6253472383788_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: what they held at launch, the program being the region
    alone. -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The gate window's staging buffer holds the gate block at every point, for any bookkeeping that starts from the
    entry contents and says the body leaves the block in place. -/
theorem gate_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the up window. -/
theorem up_before_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## One grid point -/

/-- The whole `512 × 2048` block, the one rectangle the body loads and stores through. -/
abbrev whole : Rect S512x2048 := Rect.unit (s := S512x2048) ![0, 0] S512x2048.size inb_S512x2048_S512x2048_0_0

/-- What the result window's buffer holds after the body, from the two input blocks: the body's one store, of the
    value computed from the two loads. -/
def outBlk (g : Vec F S512x2048 .f32) (u : Vec F S512x2048 .f32) : Vec F S512x2048 .f32 :=
  View.canon [⟨whole, k0_pay1 (View.ld g whole) (View.ld u whole)⟩]

/-- That one store covers the buffer. -/
theorem outBlk_cover (p0 : Vec F S512x2048 .f32) (y : S512x2048.Idx) :
    ∃ pc ∈ ([⟨whole, p0⟩] : List (View.Piece (Elt F) S512x2048 .f32)), y ∈ pc.1.set :=
  View.cover_of_tiled [⟨whole, p0⟩] S512x2048.size (by rfl) y

set_option maxHeartbeats 1000000 in
/-- The body on whole staging buffers: the inputs' at contents `g` and `u`, the result's at anything. It ends with the
    inputs' as they were and the result's at `outBlk g u`. (The body also loads the result buffer before storing into
    it; nothing reads that value.) -/
theorem sound_kernel (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole)
    (g : Vec F S512x2048 .f32) (u : Vec F S512x2048 .f32) (K : PUnit → sProp 𝕄) :
    iprop(owns (c : Thread nD τ) arg2 fullShare g ∗ owns (c : Thread nD τ) arg3 fullShare u ∗ (∃ d, owns (c : Thread nD τ) arg4 fullShare d)
        ∗ (iprop(owns (c : Thread nD τ) arg2 fullShare g ∗ owns (c : Thread nD τ) arg3 fullShare u ∗ owns (c : Thread nD τ) arg4 fullShare (outBlk g u)) -∗ K ⟨⟩))
      ⊢ wp frame (wpE (defs₀ (F := F)) Variants.none c none) E (cc0__gelu_mul_kernel i arg2 harg2 arg3 harg3 arg4 harg4) K := by
  simp only [cc0__gelu_mul_kernel_eq_skeleton]; unfold cc0__gelu_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlk_cover _)

/-! ## The bookkeeping -/

/-- What the pipeline is told about core `c`: the arrays as the region finds them; after the body at point `t` each
    input buffer at its block and the result buffer at `outBlk` of the two; nothing kept between points; nothing owed.
    The two input windows read one array, so each holds it at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := BI.emp
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_gate (c : Dev nD) (t : Fin cfg0.N) : (dats m 0 c).after 0 t = iblk m c 0 t := by dsimp only [dats]
theorem after_up (c : Dev nD) (t : Fin cfg0.N) : (dats m 0 c).after 1 t = iblk m c 1 t := by dsimp only [dats]
theorem after_out (c : Dev nD) (t : Fin cfg0.N) : (dats m 0 c).after 2 t = outBlk (iblk m c 0 t) (iblk m c 1 t) := by dsimp only [dats]

theorem before_gate (c : Dev nD) (t : Fin cfg0.N) (d) : (dats m 0 c).before 0 t d = iblk m c 0 t :=
  gate_before_of m (dats m 0 c) (A_eq m c 0) (after_gate m c) t d
theorem before_up (c : Dev nD) (t : Fin cfg0.N) (d) : (dats m 0 c).before 1 t d = iblk m c 1 t :=
  up_before_of m (dats m 0 c) (A_eq m c 1) (after_up m c) t d

/-! ## The body's obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_gate, before_up]
  rw [show (dats m 0 c).Φ t.succ = (dats m 0 c).Φ t.castSucc from rfl,
    show (dats m 0 c).owesAt () t.succ = (dats m 0 c).owesAt () t.castSucc from rfl,
    after_gate, after_up, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the input array to its two windows -/

/-- The buffers behind the three windows' arrays are two: the input array and the result array. -/
theorem arr_image : (Finset.univ.image (Pipeline.arrRef spec0) : Finset (Ref sig .tc)) = [main_arg0, main_v0].toFinset := by decide

/-- At launch the input array is held whole; its two windows take the two halves of that share, and the result
    window takes the result array whole. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq [main_arg0, main_v0] arr_image (by decide), bigSep_W0]
  have h0 : (cfg0.win 0).arr.view.set = Finset.univ := (arr_whole0 0).set_eq_univ
  have h2 : (cfg0.win 2).arr.view.set = Finset.univ := (arr_whole0 2).set_eq_univ
  -- the two input windows name one array, so one rewrite serves both
  rw [h0, h2]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦{fullShare.left} V m c main_arg0) ∗ ((c.tc : Thread nD τ).loc main_arg0 ↦{fullShare.right} V m c main_arg0)
      ∗ ((c.tc : Thread nD τ).loc main_v0 ↦{fullShare} V m c main_v0))
  iintro ⟨Hx, Ho⟩
  ihave Hx := (pointsTo_share (PosShare.mem_left_op_right fullShare)).1 $$ Hx
  icases Hx with ⟨Hl, Hr⟩
  isplitl [Hl]; · iexact Hl
  isplitl [Hr]; · iexact Hr
  iexact Ho

/-! ## The run -/

/-- From any memory with every counter at zero, every weakly fair execution of the program ends, without a fault, with
    the result array at what the pipeline's write-backs make of the blocks the body left, and the input array as it
    was. -/
theorem run_main : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => BI.emp) (Y := fun _ => BI.emp) (Z := fun _ => BI.emp)
    (hX := fun c => by rw [unscopedRest0_eq]; iintro -; isplitl [] <;> iempintro)
    (hin := fun c => by
      rw [scopedRest0_eq]
      show _ ⊢ (BI.emp : sProp 𝕄)
      iintro -; iempintro)
    (hout := fun c => by
      rw [scopedRest0_eq]
      show (BI.emp : sProp 𝕄) ⊢ _
      iintro -; isplitl [] <;> iempintro)
    (QY := fun _ _ => True)
    (hY := fun c s' => by
      iintro ⟨-, -, HSI⟩; imodintro
      isplitr
      · ipureintro; trivial
      iexact HSI)
    (hQ := fun s h c => ⟨(h c).1 2, ((h c).1 0).trans (((dats m 0 c).arrAt_in 0 rfl _).trans (A_eq m c 0))⟩)

/-- The program runs, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Frame

end
-- ==== Proof.Spec.lean ====
/-
  The mathematics of the gated tanh-GELU, away from any program.

  One output element depends on two input elements of the same row: the gate `g = x[r, q]` and the
  up-projection `u = x[r, 14336 + q]`. Both programs compute `(1/2 · g) · (1 + tanh(inner)) · u`; they differ
  only in how `inner` is grouped:

    reference:  c · (g + ((k · g) · g) · g)
    kernel:     g · (c + ck · (g · g))

  with `c`, `k` the two float constants and `ck` the kernel's folded product. Over the reals
  `g · (c + (c·k) · g²) = c · (g + k · g³)` by distributivity, which is why finiteness of `g` is needed: on the
  extended reals distributivity fails at the infinities.
-/
import Idealize.ShloMosaic.PureOps.Ideal
import Idealize.ShloMosaic.Lib.ValueIdx

noncomputable section

namespace Cert.GeluMul

open Idealize.ShloMosaic Idealize.ShloMosaic.ValueIdx

/-- The input array's shape, `[4096, 28672]`: each row holds the gate half then the up half. -/
abbrev SX : Shape := ⟨2, ![4096, 28672]⟩
/-- The output array's shape, `[4096, 14336]`. -/
abbrev SO : Shape := ⟨2, ![4096, 14336]⟩

/-- `sqrt(2/π)` as the programs spell it (an f32 word). -/
abbrev cW : EReal := Ideal.ofBits .f32 0x3F4C422A#32
/-- `0.044715` as the reference spells it (an f32 word). -/
abbrev kW : EReal := Ideal.ofBits .f32 0x3D372713#32
/-- `0.5`. -/
abbrev hW : EReal := Ideal.ofBits .f32 0x3F000000#32
/-- `1.0`. -/
abbrev oW : EReal := Ideal.ofBits .f32 0x3F800000#32
/-- The exact product of the two constants `c` and `k`, the value the kernel's folded constant is named. -/
abbrev ckQ : EReal := ((80338380498831 / 2251799813685248 : ℝ) : EReal)

/-- The reference's value at one element, from the gate `g` and the up-projection `u`. -/
def refPt (g u : EReal) : EReal :=
  ((hW * g) * (oW + Ideal.tanh (cW * (g + ((kW * g) * g) * g)))) * u

/-- The kernel's value at one element, with `ck` standing for its folded constant. -/
def kerPt (ck g u : EReal) : EReal :=
  ((hW * g) * (oW + Ideal.tanh (g * (cW + ck * (g * g))))) * u

/-- Where output element `(r, q)` finds its gate: `x[r, q]`. -/
abbrev gateIx (r : Fin 4096) (q : Fin 14336) : SX.Idx := ix2 r (⟨q.val, by omega⟩ : Fin 28672)
/-- Where output element `(r, q)` finds its up-projection: `x[r, 14336 + q]`. -/
abbrev upIx (r : Fin 4096) (q : Fin 14336) : SX.Idx := ix2 r (⟨q.val + 14336, by omega⟩ : Fin 28672)

/-- The reference's whole result as one function of the input array. -/
def G (x : SX.Idx → EReal) : SO.Idx → EReal :=
  fun j => refPt (x (gateIx (j 0) (j 1))) (x (upIx (j 0) (j 1)))

/-- The kernel's whole result as one function of the input array. -/
def Gk (x : SX.Idx → EReal) : SO.Idx → EReal :=
  fun j => kerPt ckQ (x (gateIx (j 0) (j 1))) (x (upIx (j 0) (j 1)))

end Cert.GeluMul

end
-- ==== Proof.KValue.lean ====
/-
  What the kernel's result array holds after the run, as one function of the input array.

  At grid point `t = (i, j)` the body writes back block `(i, j)` of the result: rows `512 i … 512 i + 511`, columns
  `2048 j … 2048 j + 2047`. Entry `(a, b)` of that block is computed from entry `(a, b)` of the gate block, which is
  `x[512 i + a, 2048 j + b]`, and entry `(a, b)` of the up block, block `(i, j + 7)` of `x`, which is
  `x[512 i + a, 2048 (j + 7) + b] = x[512 i + a, 14336 + 2048 j + b]`. So result entry `(r, q)` is the kernel's
  pointwise formula at `x[r, q]` and `x[r, 14336 + q]`, whichever point wrote it; and the 8 × 7 blocks tile the
  `4096 × 14336` result, so every entry is written.
-/
import proofs.«424441_j6253472383788_3_alg».proof.Proof.KFrameIdeal
import proofs.«424441_j6253472383788_3_alg».proof.Proof.Spec
import Idealize.ShloMosaic.Lib.Pipeline.Value
import Idealize.ShloMosaic.Lib.ValueIdx
import Idealize.ShloMosaic.PureOps.IdealRules

set_option maxRecDepth 16384

noncomputable section

namespace Cert.GeluMul.Ker

open Cert.KernelIdeal Cert.KernelIdeal.Gen Cert.KernelIdeal.Frame Cert.GeluMul
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem zero_off : (![0, 0] : Fin 2 → Nat) = fun _ => 0 := funext fun a => by fin_cases a <;> rfl

/-- The kernel's named constant denotes the exact product of the reference's two constants. -/
theorem ck_named : Named.named (F := Ideal) Cert.KernelIdeal.κ "ck" (φ := .f32) 0x3D122279#32 = ckQ :=
  IdealRules.named_const.ideal_named_scalar _ _ _ _ rfl

/-- The body's arithmetic at one entry of the block: the kernel's pointwise formula of the two loaded entries. -/
theorem pay_apply (g u : Vec Ideal S512x2048 .f32) (j : S512x2048.Idx) :
    k0_pay1 (F := Ideal) g u j = kerPt ckQ (g j) (u j) := by
  simp only [k0_pay1, kerPt, mulf, addf, tanh, broadcast, Ideal.mulf_def, Ideal.addf_def, Ideal.tanh_def, Ideal.ofBits_def,
    Scalar.ofBits, ck_named]

/-- How the three windows' block indices are related at every grid point: the gate block is the result block's, the up
    block is seven blocks to its right, and the result's block indices range over `8 × 7`. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) + 7
    ∧ win0_2.index t (0 : Fin 2) ≤ 7 ∧ win0_2.index t (1 : Fin 2) ≤ 6 :=
  (by decide +kernel : ∀ t : Fin grid0.N, _)

/-- Every block of the result is some grid point's. -/
theorem idx_onto : ∀ (q0 : Fin 8) (q1 : Fin 7), ∃ t : Fin cfg0.N, win0_2.index t = ![q0.val, q1.val] :=
  (by decide +kernel : ∀ (q0 : Fin 8) (q1 : Fin 7), ∃ t : Fin grid0.N, win0_2.index t = ![q0.val, q1.val])

/-- What point `t` writes back is block `t` of `Gk` of the input array. -/
theorem flushed_eq (c : Dev nD) (t : Fin cfg0.N) :
    (dats m 0 c).flushed 2 t = ((cfg0.win 2).blk t).view.read (Elt Ideal) (Gk (V m c main_arg0)) := by
  show (cfg0.win 2).cut (grid0.coords t) ((dats m 0 c).after 2 t) = _
  rw [after_out]
  unfold outBlk
  rw [View.canon_unit_zero zero_off]
  simp only [View.ld_unit_zero (S := S512x2048) zero_off]
  obtain ⟨e0, e1, e2, e3, e4, e5⟩ := idx_facts t
  funext j
  show k0_pay1 (F := Ideal) (iblk m c 0 t) (iblk m c 1 t) j = Gk (V m c main_arg0) (((cfg0.win 2).blk t).view.emb j)
  refine (pay_apply (iblk m c 0 t) (iblk m c 1 t) j).trans ?_
  have hj0 : (j 0).val < 512 := (j 0).isLt
  have hj1 : (j 1).val < 2048 := (j 1).isLt
  have hg : ((cfg0.win 0).blk t).view.emb j
      = gateIx ((((cfg0.win 2).blk t).view.emb j) 0) ((((cfg0.win 2).blk t).view.emb j) 1) := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have hu : ((cfg0.win 1).blk t).view.emb j
      = upIx ((((cfg0.win 2).blk t).view.emb j) 0) ((((cfg0.win 2).blk t).view.emb j) 1) := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val + 14336; omega
  show kerPt ckQ (V m c main_arg0 (((cfg0.win 0).blk t).view.emb j)) (V m c main_arg0 (((cfg0.win 1).blk t).view.emb j)) = _
  rw [hg, hu]
  rfl

/-- An entry of the result is in point `t`'s block iff each coordinate is in the block's range on its axis. -/
theorem mem_blk (t : Fin cfg0.N) (i : S4096x14336.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Every entry `(r, q)` of the result is in the block of the point with block indices `(r / 512, q / 2048)`. -/
theorem cover (i : S4096x14336.Idx) : ∃ t : Fin cfg0.N, (cfg0.win 2).flush t = true ∧ i ∈ ((cfg0.win 2).blk t).view.set := by
  have hi0 : (i 0).val < 4096 := (i 0).isLt
  have hi1 : (i 1).val < 14336 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the run is `Gk` of the input array. -/
theorem final (c : Dev nD) : (dats m 0 c).arrAt 2 cfg0.N = Gk (m ((c.tc : Thread nD τ).loc main_arg0)) :=
  (dats m 0 c).arrAt_eq_of_cover 2 (Gk (V m c main_arg0)) (fun t _ => flushed_eq m c t) cover

/-- The kernel's run, read: the result array at `Gk` of the input array, the input array unchanged. -/
theorem run : θ_run (defs (F := Ideal)) (onTc (τ := τ) (main (F := Ideal))) ⟨m, fun _ => 0, ρ⟩ (fun r => ∀ c : Dev nD,
      r.2.mem ((c.tc : Thread nD τ).loc main_v0) = Gk (m ((c.tc : Thread nD τ).loc main_arg0))
      ∧ r.2.mem ((c.tc : Thread nD τ).loc main_arg0) = m ((c.tc : Thread nD τ).loc main_arg0)) :=
  (θ_run defs _ _).mono (fun r h c => ⟨(h c).1.trans (final m c), (h c).2⟩) (run_main m ρ)

end Cert.GeluMul.Ker

end
-- ==== Proof.RefValue.lean ====
import proofs.«424441_j6253472383788_3_alg».proof.Proof.Gen.ReferenceIdeal.Read
import proofs.«424441_j6253472383788_3_alg».proof.Proof.Spec

/-!
  The reference's run, read as one function of its argument.

  The reference slices the argument into its gate half (columns `0 … 14335`) and its up half
  (columns `14336 … 28671`) and then works element by element: every later stage's element at `(r, q)`
  depends on the same element of its operands. Reading the last stage at an index and descending
  through the stages therefore gives the pointwise formula `refPt` at the gate `x[r, q]` and the
  up-projection `x[r, 14336 + q]`, which is `G`.
-/

noncomputable section

namespace Cert.GeluMul.Ref

open Idealize.ShloMosaic Idealize.ShloMosaic.TcCoe Idealize.SL.Sem Idealize.ShloMosaic.ValueIdx
open Cert.ReferenceIdeal Cert.ReferenceIdeal.Gen Cert.ReferenceIdeal.Read

/-- The first slice starts at column `0`: output element `(r, q)` reads the gate `x[r, q]`. -/
theorem idx_gate (j : S4096x14336.Idx) : idx_main_v0 j = gateIx (j 0) (j 1) := by
  funext a
  match a with
  | ⟨0, _⟩ => rfl
  | ⟨1, _⟩ => rfl

/-- The second slice starts at column `14336`: output element `(r, q)` reads the up-projection
    `x[r, 14336 + q]`. The two spellings of the column differ by commutativity of the sum. -/
theorem idx_up (j : S4096x14336.Idx) : idx_main_v1 j = upIx (j 0) (j 1) := by
  funext a
  match a with
  | ⟨0, _⟩ => rfl
  | ⟨1, _⟩ => exact Fin.ext (Nat.add_comm 14336 (j 1).val)

/-- The reference's last stage is `G` of the argument: at every index both sides are
    `((1/2 · g) · (1 + tanh (c · (g + ((k · g) · g) · g)))) · u` with `g` the gate and `u` the up-projection. -/
theorem result_eq (x : (⟨Cert.ReferenceIdeal.S4096x28672, .f32⟩ : BufTy).Contents (Elt Ideal)) :
    val_main_v15 (F := Ideal) x = Cert.GeluMul.G x := by
  funext j
  rw [val_main_v15_apply, val_main_v14_apply, val_main_v13_apply, val_main_v12_apply, val_main_cst_2_apply,
    val_main_v11_apply, val_main_v10_apply, val_main_v9_apply, val_main_cst_1_apply, val_main_v8_apply,
    val_main_v7_apply, val_main_v6_apply, val_main_v5_apply, val_main_v4_apply, val_main_cst_0_apply,
    val_main_v3_apply, val_main_v2_apply, val_main_cst_apply, val_main_v0_apply, val_main_v1_apply,
    idx_gate, idx_up]
  simp only [Ideal.mulf_def, Ideal.addf_def, Ideal.hostUnary_tanh_def, Ideal.ofBits_def, G, refPt]

/-- Every weakly fair execution of the reference terminates with its result at `G` of the argument's
    launch contents and the argument unchanged. -/
theorem run [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v15)
            = Cert.GeluMul.G (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans ((val_main_v15_eq _).trans (result_eq _)), (h c).2⟩)
    (Cert.ReferenceIdeal.Value.run (F := Ideal) m' ρ')

end Cert.GeluMul.Ref

end
-- ==== Proof.Algebra.lean ====
/-
  The pointwise law of the gated tanh-GELU.

  The two float constants are evaluated as exact dyadic rationals, the folded constant is shown to be their
  exact product, and the two groupings of the tanh argument are shown equal for a real gate:

    g · (c + (c·k) · (g · g)) = c · (g + ((k · g) · g) · g).

  Both sides are polynomial in the real `g`, so after moving every coercion outwards the identity is a ring
  identity over the reals. The up-projection `u` may be any extended real: it multiplies both sides alike.
-/
import proofs.«424441_j6253472383788_3_alg».proof.Proof.Spec
import Mathlib.Tactic.Ring
import Mathlib.Tactic.NormNum

noncomputable section

namespace Cert.GeluMul

open Idealize.ShloMosaic Idealize.ShloMosaic.ValueIdx

/-- The word `0x3F4C422A`: exponent field 126, significand `0xCC422A = 13386282`, so `13386282 / 2^24`. -/
theorem cW_val : cW = (((13386282 : ℝ) / 16777216 : ℝ) : EReal) := by
  simp [Ideal.ofBits, Ideal.ieee, -EReal.coe_mul]; norm_num

/-- The word `0x3D372713`: exponent field 122, significand `0xB72713 = 12003091`, so `12003091 / 2^28`. -/
theorem kW_val : kW = (((12003091 : ℝ) / 268435456 : ℝ) : EReal) := by
  simp [Ideal.ofBits, Ideal.ieee, -EReal.coe_mul]; norm_num

/-- `13386282 · 12003091 = 2 · 80338380498831` and `2^24 · 2^28 = 2 · 2^51`. -/
theorem ckQ_eq : ckQ = cW * kW := by
  rw [cW_val, kW_val, ← EReal.coe_mul]
  congr 1
  norm_num

/-- The two groupings of the tanh argument agree at a real gate. -/
theorem inner_eq (g : ℝ) :
    (g : EReal) * (cW + ckQ * ((g : EReal) * (g : EReal)))
      = cW * ((g : EReal) + ((kW * (g : EReal)) * (g : EReal)) * (g : EReal)) := by
  rw [ckQ_eq, cW_val, kW_val]
  simp only [← EReal.coe_mul, ← EReal.coe_add]
  congr 1
  ring

theorem kerPt_eq_refPt (g : ℝ) (u : EReal) : kerPt ckQ (g : EReal) u = refPt (g : EReal) u := by
  unfold kerPt refPt
  rw [inner_eq]

/-- On an array all of whose elements are real, the two whole-array functions agree. -/
theorem Gk_eq_G (x : SX.Idx → EReal) (hfin : ∀ i, ∃ r : ℝ, x i = (r : EReal)) : Gk x = G x := by
  funext j
  obtain ⟨g, hg⟩ := hfin (gateIx (j 0) (j 1))
  show kerPt ckQ (x (gateIx (j 0) (j 1))) (x (upIx (j 0) (j 1)))
      = refPt (x (gateIx (j 0) (j 1))) (x (upIx (j 0) (j 1)))
  rw [hg]
  exact kerPt_eq_refPt g _

end Cert.GeluMul

end
-- ==== Proof.Finite.lean ====
/-
  Finiteness of the input from the printed precondition.

  The precondition is `all (|x| < +∞)`: an elementwise comparison of `|x|` against the word that denotes `+∞`,
  reduced by `and` over both axes into a single truth value. If that value is true, every element satisfies
  `max x (-x) < ⊤`. On the extended reals this excludes `⊤` (where `max ⊤ ⊥ = ⊤`) and `⊥` (where
  `max ⊥ ⊤ = ⊤`), so every element is a real.
-/
import proofs.«424441_j6253472383788_3_alg».proof.Pre_finite_inputs
import proofs.«424441_j6253472383788_3_alg».proof.Proof.Gen.Pre_finite_inputs
import Idealize.ShloMosaic.Lib.ReduceAll
import Idealize.ShloMosaic.Lib.ValueIdx
import Idealize.ShloMosaic.PureOps.Ideal

noncomputable section

namespace Cert.GeluMul

open Idealize.ShloMosaic Idealize.ShloMosaic.ValueIdx

/-- The rank-0 shape has exactly one index. -/
instance subsingleton_pre_scalar_idx : Subsingleton Cert.Pre_finite_inputs.S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max y (-y)` is below `⊤` is a real. -/
theorem real_of_abs_lt_top (y : EReal) (hlt : max y (-y) < ⊤) : ∃ r : ℝ, y = (r : EReal) := by
  induction y using EReal.rec with
  | bot => simp at hlt
  | coe r => exact ⟨r, rfl⟩
  | top => simp at hlt

theorem finite_of_pre [Cert.Pre_finite_inputs.Facts]
    (x : (⟨Cert.Pre_finite_inputs.S4096x28672, .f32⟩ : BufTy).Contents (Elt Ideal))
    (h : Cert.Pre_finite_inputs.fn (F := Ideal) x = fun _ => 1#1) : ∀ i, ∃ r : ℝ, x i = (r : EReal) := by
  intro i
  -- the single result of the reduction is true
  have h0 := congrFun h ValueIdx.ix0
  dsimp only [Cert.Pre_finite_inputs.fn] at h0
  -- hence the comparison is true at every element
  have hi := Host.reduce_andi_all _ _ _ _ _ h0 i
  -- the comparison at `i` is `max (x i) (-x i) < +∞` as a truth value
  have hi' : Ideal.cmp .olt (max (x i : EReal) (-(x i : EReal))) (Ideal.ofBits .f32 0x7F800000#32) = 1#1 := hi
  rw [ofBits_inf] at hi'
  simp only [Ideal.cmp] at hi'
  have hlt : max (x i : EReal) (-(x i : EReal)) < ⊤ := by
    by_contra hn
    simp [hn] at hi'
  exact real_of_abs_lt_top _ hlt

end Cert.GeluMul

end
-- ==== Proof.lean ====
/-
  The gated tanh-GELU kernel against its reference, over the extended reals.

  Both programs take `x : [4096, 28672]` and return `out[r, q] = (1/2 · g) · (1 + tanh(inner)) · u` with
  `g = x[r, q]`, `u = x[r, 14336 + q]`. The reference forms `inner = c · (g + k · g · g · g)`; the kernel forms
  `inner = g · (c + ck · (g · g))` with `ck` the product `c · k` folded into one constant. With that constant read as
  the exact product of the reference's `c` and `k` the two are equal whenever `g` is a real number, by
  distributivity; the precondition (every input finite) supplies that.

  * The kernel's frame and run: one pipelined region whose two input windows read the same array, each at half the
    share (Proof/KFrameBits.lean, Proof/KFrameIdeal.lean); the result array as one function of the input
    (Proof/KValue.lean).
  * The reference's run as the same kind of function (Proof/RefValue.lean).
  * The pointwise law and the constants (Proof/Algebra.lean); finiteness read off the precondition (Proof/Finite.lean).
-/
import proofs.«424441_j6253472383788_3_alg».proof.Defs
import proofs.«424441_j6253472383788_3_alg».proof.Proof.Gen.Kernel
import proofs.«424441_j6253472383788_3_alg».proof.Proof.Gen.KernelIdeal
import proofs.«424441_j6253472383788_3_alg».proof.Proof.Gen.ReferenceIdeal
import proofs.«424441_j6253472383788_3_alg».proof.Proof.Gen.Pre_finite_inputs
import proofs.«424441_j6253472383788_3_alg».proof.Proof.KFrameBits
import proofs.«424441_j6253472383788_3_alg».proof.Proof.KValue
import proofs.«424441_j6253472383788_3_alg».proof.Proof.RefValue
import proofs.«424441_j6253472383788_3_alg».proof.Proof.Algebra
import proofs.«424441_j6253472383788_3_alg».proof.Proof.Finite

noncomputable section

namespace Cert.Proof

open Idealize.ShloMosaic Idealize.ShloMosaic.TcCoe Idealize.SL.Sem

/-- The kernel as printed runs and leaves its input unchanged. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference runs and leaves its input unchanged: its run with the result dropped. -/
theorem frame_ri : Cert.frame_ReferenceIdeal := fun m ρ _ =>
  (θ_run Cert.ReferenceIdeal.defs _ _).mono (fun _ h c => (h c).2) (Cert.GeluMul.Ref.run m ρ)

/-- The one rewrite of the idealization: the folded constant is read as the exact product of the reference's two. -/
theorem preserves : Cert.preserves_Kernel_KernelIdeal :=
  IdealRules.named_const.statement Cert.KernelIdeal.κ "ck" .f32 0x3D122279#32 ((80338380498831 / 2251799813685248 : ℝ) : EReal) rfl

/-- From memories that agree on the input, both programs end with the result array at `G` of the input: the
    reference's run is `G` outright; the kernel's is `Gk`, which is `G` on an input of real numbers. -/
theorem algebraic : Cert.algebraic_KernelIdeal_ReferenceIdeal := by
  intro m ρ m' ρ' hpre hagree
  refine ⟨fun c => Cert.GeluMul.G (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩) (Cert.GeluMul.Ker.run m ρ)
    exact Cert.GeluMul.Gk_eq_G _ (Cert.GeluMul.finite_of_pre _ (hpre c))
  · refine (θ_run Cert.ReferenceIdeal.defs _ _).mono (fun r h c => ⟨?_, (h c).2⟩) (Cert.GeluMul.Ref.run m' ρ')
    rw [(h c).1, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
